-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S32x64 : Shape := ⟨2, ![32, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : IVec S100000 32) (main_arg3 : FVec F S3x64x64 .f32) (main_arg4 : FVec F S3x64x64 .f32) (main_arg5 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S10000x64 : Shape := ⟨2, ![10000, 64]⟩
abbrev S128 : Shape := ⟨1, ![128]⟩
abbrev S100000x1 : Shape := ⟨2, ![100000, 1]⟩
abbrev S128x1 : Shape := ⟨2, ![128, 1]⟩
abbrev S64x32 : Shape := ⟨2, ![64, 32]⟩
abbrev S128x32 : Shape := ⟨2, ![128, 32]⟩
abbrev S10000x1 : Shape := ⟨2, ![10000, 1]⟩
abbrev S128x64 : Shape := ⟨2, ![128, 64]⟩
abbrev S10000x128 : Shape := ⟨2, ![10000, 128]⟩

abbrev nBuf : Space → Nat
  | .hbm => 86
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S3x64x64, .f32⟩
  | .hbm, ⟨4, _⟩ => ⟨S3x64x64, .f32⟩
  | .hbm, ⟨5, _⟩ => ⟨S32x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S64x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64x64, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S64x64, .f32⟩
  | .hbm, ⟨48, _⟩ => ⟨S64x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64x64, .f32⟩
  | .hbm, ⟨64, _⟩ => ⟨S64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S64x64, .f32⟩
  | .hbm, ⟨69, _⟩ => ⟨S100000x64, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S128, .f32⟩
  | .hbm, ⟨74, _⟩ => ⟨S100000x1, .i32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128x1, .f32⟩
  | .hbm, ⟨83, _⟩ => ⟨S64x32, .f32⟩
  | .hbm, ⟨84, _⟩ => ⟨S100000x1, .i32⟩
  | .hbm, ⟨85, _⟩ => ⟨S128x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .i32⟩
  | .local _ .vmem, ⟨27, _⟩ => ⟨S10000x1, .i32⟩
  | .local _ .vmem, ⟨28, _⟩ => ⟨S128x1, .f32⟩
  | .local _ .vmem, ⟨29, _⟩ => ⟨S64x32, .f32⟩
  | .local _ .vmem, ⟨30, _⟩ => ⟨S128x32, .f32⟩
  | .local _ .vmem, ⟨31, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  transposes_S32x64_S64x32_1_0 : S32x64.Transposes [1, 0] S64x32
  shapeCasts_S100000_S100000x1 : S100000.ShapeCasts S100000x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S128x32_S128x32_0_0 : ∀ a, (![0, 0] : Fin 2 → Nat) a + S128x32.size a ≤ S128x32.size a
  h_S128x32 : 0 < S128x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S128_S100000x1_S100000_n_0_0_1_wf : ScatterDims.WF S128 S100000x1 S100000 [] [0] [0] 1
  dot_S10000x128_S10000x64_S128x64_0_0_1_1_n_n_wf : DotDims.WF S10000x128 S10000x64 S128x64 [0] [0] [1] [1] [] []
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x32.size a ≤ S128x32.size a
  hwx3_4 : ∀ i : grid3.Coords, EltTy.bits .f32 = 32 ∨ (Rect.block (s := S128x32) S128x32.size (cc3_transform_4 i) (hinb3_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S128x32.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S128 : Shape := ⟨1, ![128]⟩
abbrev S100000x1 : Shape := ⟨2, ![100000, 1]⟩
abbrev S128x64 : Shape := ⟨2, ![128, 64]⟩
abbrev S128x1 : Shape := ⟨2, ![128, 1]⟩
abbrev S64x32 : Shape := ⟨2, ![64, 32]⟩
abbrev S128x32 : Shape := ⟨2, ![128, 32]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S3x64x64, .f32⟩
  | .hbm, ⟨4, _⟩ => ⟨S3x64x64, .f32⟩
  | .hbm, ⟨5, _⟩ => ⟨S32x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S100000x64, .f32⟩
  | .hbm, ⟨27, _⟩ => ⟨S1x64x64, .f32⟩
  | .hbm, ⟨28, _⟩ => ⟨S64x64, .f32⟩
  | .hbm, ⟨29, _⟩ => ⟨S64x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S100000x64, .f32⟩
  | .hbm, ⟨52, _⟩ => ⟨S1x64x64, .f32⟩
  | .hbm, ⟨53, _⟩ => ⟨S64x64, .f32⟩
  | .hbm, ⟨54, _⟩ => ⟨S64x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x64x64, .f32⟩
  | .hbm, ⟨74, _⟩ => ⟨S64x64, .f32⟩
  | .hbm, ⟨75, _⟩ => ⟨S64x64, .f32⟩
  | .hbm, ⟨76, _⟩ => ⟨S100000x64, .f32⟩
  | .hbm, ⟨77, _⟩ => ⟨S1x64x64, .f32⟩
  | .hbm, ⟨78, _⟩ => ⟨S64x64, .f32⟩
  | .hbm, ⟨79, _⟩ => ⟨S64x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S128, .f32⟩
  | .hbm, ⟨89, _⟩ => ⟨S100000x1, .i32⟩
  | .hbm, ⟨90, _⟩ => ⟨S128, .f32⟩
  | .hbm, ⟨91, _⟩ => ⟨S_, .f32⟩
  | .hbm, ⟨92, _⟩ => ⟨S128x64, .f32⟩
  | .hbm, ⟨93, _⟩ => ⟨S100000x1, .i32⟩
  | .hbm, ⟨94, _⟩ => ⟨S128x64, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128x1, .f32⟩
  | .hbm, ⟨99, _⟩ => ⟨S128x64, .f32⟩
  | .hbm, ⟨100, _⟩ => ⟨S128x64, .f32⟩
  | .hbm, ⟨101, _⟩ => ⟨S64x32, .f32⟩
  | .hbm, ⟨102, _⟩ => ⟨S128x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_cst : Ref sig .tc := ⟨.hbm, 57, rfl⟩
abbrev main_call1_v0 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call2_cst : Ref sig .tc := ⟨.hbm, 82, rfl⟩
abbrev main_call2_v0 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64x64_S1x64x64_1_0_0 : S3x64x64.Slices ![1, 0, 0] S1x64x64
  slices_S3x64x64_S1x64x64_2_0_0 : S3x64x64.Slices ![2, 0, 0] S1x64x64
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  transposes_S32x64_S64x32_1_0 : S32x64.Transposes [1, 0] S64x32
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.Bridge.Terms.lean ====
import proofs.«427043_j31275951850041_2_alg».proof.Proof.Gen.ReferenceIdeal.Run

set_option maxRecDepth 16384

noncomputable section

/-! The reference program's result as a composition of four named stages, each a function of whole arrays:
    the edge aggregation (gather the source rows, add them into the target rows), one graph-convolution layer
    relu(agg·Wrelᵀ + h·Wrootᵀ), a weight slab transposed, and the mean pooling with its linear readout. -/

namespace Cert.Bridge

open Cert.ReferenceIdeal Cert.ReferenceIdeal.Gen Idealize.ShloMosaic Idealize.ShloMosaic.TcCoe Idealize.SL.Sem

variable {F : FTy → Type} [FloatOps F]

/-- Row 0 of the edge list: the message sources. -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: the aggregation targets. -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- agg[i] = Σ over edges e with dst e = i of h[src e] (a negative source index wrapped once, as the index normalisation does). -/
def aggRef (h : (⟨S100000x64, .f32⟩ : BufTy).Contents (Elt F)) (ei : (⟨S2x1600000, .i32⟩ : BufTy).Contents (Elt F)) :
    (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (dstIdx (F := F) ei)) (Host.gather gather_S100000x64_S1600000x1_S1600000x64_1_0_n_n_0_1_164 h (broadcastInDim S1600000x1 ![0] bcast_S1600000_S1600000x1_0 (select (cmpi .slt (srcIdx (F := F) ei) (broadcastInDim S1600000 ![] bcast_S_S1600000 (constantI S_ 32 0#32))) (addi (srcIdx (F := F) ei) (broadcastInDim S1600000 ![] bcast_S_S1600000 (constantI S_ 32 100000#32))) (srcIdx (F := F) ei))))

/-- One layer: relu(agg·wr + h·wo), the weights already transposed. -/
def layerRef (a h : (⟨S100000x64, .f32⟩ : BufTy).Contents (Elt F)) (wr wo : (⟨S64x64, .f32⟩ : BufTy).Contents (Elt F)) :
    (⟨S100000x64, .f32⟩ : BufTy).Contents (Elt F) :=
  maximumf (addf (Host.dotGeneral dot_S100000x64_S64x64_S100000x64_1_0_0_1_n_n none a wr) (Host.dotGeneral dot_S100000x64_S64x64_S100000x64_1_0_0_1_n_n none h wo)) (broadcastInDim S100000x64 ![] bcast_S_S100000x64 (constant S_ .f32 0x00000000#32))

/-- Slab 0, 1, 2 of a weight stack, transposed. -/
def wT0 (W : (⟨S3x64x64, .f32⟩ : BufTy).Contents (Elt F)) : (⟨S64x64, .f32⟩ : BufTy).Contents (Elt F) :=
  transpose S64x64 [1, 0] (shapeCast _ (extractStridedSlice S1x64x64 ![0, 0, 0] W slices_S3x64x64_S1x64x64_0_0_0) shapeCasts_S1x64x64_S64x64) transposes_S64x64_S64x64_1_0
def wT1 (W : (⟨S3x64x64, .f32⟩ : BufTy).Contents (Elt F)) : (⟨S64x64, .f32⟩ : BufTy).Contents (Elt F) :=
  transpose S64x64 [1, 0] (shapeCast _ (extractStridedSlice S1x64x64 ![1, 0, 0] W slices_S3x64x64_S1x64x64_1_0_0) shapeCasts_S1x64x64_S64x64) transposes_S64x64_S64x64_1_0
def wT2 (W : (⟨S3x64x64, .f32⟩ : BufTy).Contents (Elt F)) : (⟨S64x64, .f32⟩ : BufTy).Contents (Elt F) :=
  transpose S64x64 [1, 0] (shapeCast _ (extractStridedSlice S1x64x64 ![2, 0, 0] W slices_S3x64x64_S1x64x64_2_0_0) shapeCasts_S1x64x64_S64x64) transposes_S64x64_S64x64_1_0

/-- The number of nodes of each graph, at least one: max(Σ_{n : batch n = g} 1, 1). -/
def countsRef (batch : (⟨S100000, .i32⟩ : BufTy).Contents (Elt F)) : (⟨S128, .f32⟩ : BufTy).Contents (Elt F) :=
  maximumf (Host.scatterAdd scatter_S128_S100000x1_S100000_n_0_0_1 (broadcastInDim S128 ![] bcast_S_S128 (constant S_ .f32 0x00000000#32)) (broadcastInDim S100000x1 ![0] bcast_S100000_S100000x1_0 batch) (broadcastInDim S100000 ![] bcast_S_S100000 (constant S_ .f32 0x3F800000#32))) (broadcastInDim S128 ![] bcast_S_S128 (constant S_ .f32 0x3F800000#32))

/-- Mean pooling over graphs and the linear readout: ((Σ_{n : batch n = g} h[n]) / count g) · woutᵀ. -/
def poolRef (h : (⟨S100000x64, .f32⟩ : BufTy).Contents (Elt F)) (batch : (⟨S100000, .i32⟩ : BufTy).Contents (Elt F))
    (woT : (⟨S64x32, .f32⟩ : BufTy).Contents (Elt F)) : (⟨S128x32, .f32⟩ : BufTy).Contents (Elt F) :=
  Host.dotGeneral dot_S128x64_S64x32_S128x32_1_0_0_1_n_n none (Host.divf (Host.scatterAdd scatter_S128x64_S100000x1_S100000x64_1_0_0_1 (broadcastInDim S128x64 ![] bcast_S_S128x64 (constant S_ .f32 0x00000000#32)) (broadcastInDim S100000x1 ![0] bcast_S100000_S100000x1_0 batch) h) (broadcastInDim S128x64 ![0, 1] bcast_S128x1_S128x64_0_1 (broadcastInDim S128x1 ![0] bcast_S128_S128x1_0 (countsRef (F := F) batch)))) woT

/-- The whole network as the composition of its stages. -/
def netRef (x : (⟨S100000x64, .f32⟩ : BufTy).Contents (Elt F)) (ei : (⟨S2x1600000, .i32⟩ : BufTy).Contents (Elt F))
    (batch : (⟨S100000, .i32⟩ : BufTy).Contents (Elt F)) (Wrel Wroot : (⟨S3x64x64, .f32⟩ : BufTy).Contents (Elt F))
    (Wout : (⟨S32x64, .f32⟩ : BufTy).Contents (Elt F)) : (⟨S128x32, .f32⟩ : BufTy).Contents (Elt F) :=
  let h1 := layerRef (aggRef x ei) x (wT0 Wrel) (wT0 Wroot)
  let h2 := layerRef (aggRef h1 ei) h1 (wT1 Wrel) (wT1 Wroot)
  let h3 := layerRef (aggRef h2 ei) h2 (wT2 Wrel) (wT2 Wroot)
  poolRef h3 batch (transpose S64x32 [1, 0] Wout transposes_S32x64_S64x32_1_0)

/-- The reference's run term is that composition. -/
theorem res_eq_netRef (m : (ℓ : Loc nD τ sig) → Buf (Elt F) ℓ) (c : Dev nD) :
    Cert.ReferenceIdeal.Value.res_main_v77 m c
      = netRef (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rfl

end Cert.Bridge

end
-- ==== Proof.Bridge.PoolMath.lean ====
import proofs.«427043_j31275951850041_2_alg».proof.Proof.Bridge.Terms
import Idealize.ShloMosaic.Lib.ValueIdx
import Idealize.ShloMosaic.PureOps.Ideal.Laws

set_option maxRecDepth 16384

noncomputable section

/-! The pooling stage read pointwise: the segment sum as a sum over all nodes weighted by the
    indicator of the node's graph, the division by a non-zero count as a product with the
    reciprocal, and the positivity of the clamped count. -/

namespace Cert.Bridge

open Cert.ReferenceIdeal Cert.ReferenceIdeal.Gen Idealize.ShloMosaic
open scoped BigOperators

/-- The dimension numbers of the segment sum: update (n, d') goes to row `batch n`, column `d'`. -/
abbrev poolScatter := scatter_S128x64_S100000x1_S100000x64_1_0_0_1

/-! ### Where an update lands -/

/-- Axis 0 of the result is an inserted axis: no window coordinate. -/
theorem poolScatter_window0 (j : S100000x64.Idx) : poolScatter.window j 0 = 0 := rfl

/-- Axis 1 of the result carries the update's column. -/
theorem poolScatter_window1 (j : S100000x64.Idx) : poolScatter.window j 1 = (j 1).val := rfl

/-- The index vector names axis 0 only: the window starts at column 0. -/
theorem poolScatter_start1 (j : S100000x64.Idx) (idx : IVec S100000x1 32) : poolScatter.start j idx 1 = 0 := rfl

/-- The window of update row `j 0` starts at the row its index names, read signed. -/
theorem poolScatter_start0 (j : S100000x64.Idx) (idx : IVec S100000x1 32) :
    poolScatter.start j idx 0 = (idx (ValueIdx.ix2 (j 0) 0)).toInt := by
  unfold ScatterDims.start
  rw [dif_pos (by decide)]
  congr 2
  funext b
  match b with
  | ⟨0, _⟩ => rfl
  | ⟨1, _⟩ => rfl

/-- A 32-bit word whose signed value is a natural number below 128 is that number's word. -/
theorem word_eq_of_toInt (b : BitVec 32) (g : Nat) (hg : g < 128) (h0 : 0 ≤ b.toInt) (h : b.toInt.toNat = g) :
    b = BitVec.ofNat 32 g := by
  apply BitVec.eq_of_toNat_eq
  rw [BitVec.toNat_ofNat]
  have hc := BitVec.toInt_eq_toNat_cond b
  have hlt := b.isLt
  split at hc <;> omega

/-- The signed value of the word of a natural number below 128 is that number. -/
theorem toInt_ofNat_small (g : Nat) (hg : g < 128) : (BitVec.ofNat 32 g).toInt = (g : Int) := by
  rw [BitVec.toInt_eq_toNat_cond, BitVec.toNat_ofNat]
  split <;> omega

/-- Update (n, d') lands on result element (g, d) exactly when d' = d and node n's graph word is g:
    the start row is `batch n` read signed and not clamped, in range iff it is one of 0 … 127, and
    a signed word equals such a g iff the words are equal. -/
theorem poolScatter_resultIdx_iff (batch : (⟨S100000, .i32⟩ : BufTy).Contents (Elt Ideal)) (n : Fin 100000) (d' : Fin 64)
    (g : Fin 128) (d : Fin 64) :
    poolScatter.resultIdx? (ValueIdx.ix2 n d') (broadcastInDim S100000x1 ![0] bcast_S100000_S100000x1_0 batch) = some (ValueIdx.ix2 g d)
      ↔ (d' = d ∧ batch (ValueIdx.ix1 n) = BitVec.ofNat 32 g.val) := by
  -- the index column reads the node's graph word
  have hb : (broadcastInDim S100000x1 ![0] bcast_S100000_S100000x1_0 batch) (ValueIdx.ix2 n 0) = batch (ValueIdx.ix1 n) := by
    unfold broadcastInDim
    refine congrArg batch (funext fun a => ?_)
    match a with
    | ⟨0, _⟩ => rfl
  have hs0 : poolScatter.start (ValueIdx.ix2 n d') (broadcastInDim S100000x1 ![0] bcast_S100000_S100000x1_0 batch) 0
      = (batch (ValueIdx.ix1 n)).toInt := by
    rw [poolScatter_start0]; exact congrArg BitVec.toInt hb
  unfold ScatterDims.resultIdx?
  constructor
  · intro h
    split at h
    · rename_i hall
      have h' := Option.some.inj h
      have h0 := congrFun h' 0
      have h1 := congrFun h' 1
      have h0v : ((batch (ValueIdx.ix1 n)).toInt + ((0 : Nat) : Int)).toNat = g.val := by
        have this : (poolScatter.start (ValueIdx.ix2 n d') (broadcastInDim S100000x1 ![0] bcast_S100000_S100000x1_0 batch) 0
            + ((0 : Nat) : Int)).toNat = g.val := congrArg Fin.val h0
        rw [hs0] at this
        exact this
      have h1v : ((0 : Int) + ((d'.val : Nat) : Int)).toNat = d.val := congrArg Fin.val h1
      have ha0 : 0 ≤ (batch (ValueIdx.ix1 n)).toInt + ((0 : Nat) : Int) := by
        have this : 0 ≤ poolScatter.start (ValueIdx.ix2 n d') (broadcastInDim S100000x1 ![0] bcast_S100000_S100000x1_0 batch) 0
            + ((0 : Nat) : Int) := (hall 0).1
        rw [hs0] at this
        exact this
      refine ⟨Fin.ext (by omega), word_eq_of_toInt _ g.val g.isLt (by omega) (by omega)⟩
    · exact absurd h (by simp)
  · rintro ⟨rfl, hg⟩
    have hall : ∀ (a : Fin S128x64.rank),
        0 ≤ poolScatter.start (ValueIdx.ix2 n d') (broadcastInDim S100000x1 ![0] bcast_S100000_S100000x1_0 batch) a
              + ↑(poolScatter.window (ValueIdx.ix2 n d') a) ∧
          poolScatter.start (ValueIdx.ix2 n d') (broadcastInDim S100000x1 ![0] bcast_S100000_S100000x1_0 batch) a
              + ↑(poolScatter.window (ValueIdx.ix2 n d') a) < ↑(S128x64.size a) := by
      intro a
      match a with
      | ⟨0, _⟩ =>
        show 0 ≤ poolScatter.start (ValueIdx.ix2 n d') (broadcastInDim S100000x1 ![0] bcast_S100000_S100000x1_0 batch) 0 + ((0 : Nat) : Int) ∧
          poolScatter.start (ValueIdx.ix2 n d') (broadcastInDim S100000x1 ![0] bcast_S100000_S100000x1_0 batch) 0 + ((0 : Nat) : Int) < ((128 : Nat) : Int)
        rw [hs0, hg, toInt_ofNat_small g.val g.isLt]
        have := g.isLt
        omega
      | ⟨1, _⟩ =>
        show 0 ≤ (0 : Int) + ((d'.val : Nat) : Int) ∧ (0 : Int) + ((d'.val : Nat) : Int) < ((64 : Nat) : Int)
        have := d'.isLt
        omega
    rw [dif_pos hall]
    refine congrArg some (funext fun a => ?_)
    match a with
    | ⟨0, _⟩ =>
      refine Fin.ext ?_
      show (poolScatter.start (ValueIdx.ix2 n d') (broadcastInDim S100000x1 ![0] bcast_S100000_S100000x1_0 batch) 0 + ((0 : Nat) : Int)).toNat = g.val
      rw [hs0, hg, toInt_ofNat_small g.val g.isLt]
      omega
    | ⟨1, _⟩ =>
      refine Fin.ext ?_
      show ((0 : Int) + ((d'.val : Nat) : Int)).toNat = d'.val
      omega

/-! ### The three facts -/

/-- The segment sum at graph `g`, feature `d`: the sum over all nodes of the indicator "node `n` lies in graph `g`"
    times the node's feature. The scatter starts from zero and adds every update that lands on (g, d); those are the
    updates (n, d) with `batch n = g`; summing over the rows first, each row contributes its column `d` or nothing. -/
theorem sums_onehot (h : (⟨S100000x64, .f32⟩ : BufTy).Contents (Elt Ideal)) (batch : (⟨S100000, .i32⟩ : BufTy).Contents (Elt Ideal)) (g : Fin 128) (d : Fin 64) :
    Host.scatterAdd (F := Ideal) scatter_S128x64_S100000x1_S100000x64_1_0_0_1 (broadcastInDim S128x64 ![] bcast_S_S128x64 (constant (F := Ideal) S_ .f32 0x00000000#32)) (broadcastInDim S100000x1 ![0] bcast_S100000_S100000x1_0 batch) h (ValueIdx.ix2 g d)
      = ∑ n : Fin 100000, (if batch (ValueIdx.ix1 n) = BitVec.ofNat 32 g.val then (1 : EReal) else 0) * h (ValueIdx.ix2 n d) := by
  show Ideal.hostScatterAdd poolScatter _ _ h (ValueIdx.ix2 g d) = _
  unfold Ideal.hostScatterAdd
  have hz : (broadcastInDim S128x64 ![] bcast_S_S128x64 (constant (F := Ideal) S_ .f32 0x00000000#32)) (ValueIdx.ix2 g d) = 0 := by
    show Ideal.ofBits .f32 0x00000000#32 = 0
    exact Ideal.ofBits_zero_f32
  rw [hz, zero_add, Finset.sum_filter, ValueIdx.sum_idx2]
  refine Finset.sum_congr rfl fun n _ => ?_
  rw [Finset.sum_congr rfl (fun x _ => if_congr (poolScatter_resultIdx_iff batch n x g d) rfl rfl)]
  by_cases hg : batch (ValueIdx.ix1 n) = BitVec.ofNat 32 g.val
  · rw [if_pos hg, one_mul]
    simp only [hg, and_true]
    rw [Finset.sum_ite_eq' Finset.univ d (fun x => h (ValueIdx.ix2 n x)), if_pos (Finset.mem_univ d)]
  · rw [if_neg hg, zero_mul]
    simp only [hg, and_false, if_false]
    exact Finset.sum_const_zero

/-- Multiplying by the reciprocal of a non-zero number is dividing by it: off zero both sides are `x · c⁻¹`. -/
theorem mul_div_one (x c : EReal) (hc : c ≠ 0) : x * Ideal.div 1 c = Ideal.div x c := by
  unfold Ideal.div
  rw [if_neg hc, if_neg hc, one_mul]

/-- The f32 pattern of 1.0 denotes the number one. -/
theorem ofBits_one_f32 : Ideal.ofBits .f32 0x3F800000#32 = 1 := by
  simp [Ideal.ofBits, Ideal.ieee, -EReal.coe_mul]; norm_num

/-- The clamped node count is max(count, 1), at least one, so it is not zero. -/
theorem countsRef_ne_zero (batch : (⟨S100000, .i32⟩ : BufTy).Contents (Elt Ideal)) (g : Fin 128) : countsRef (F := Ideal) batch (ValueIdx.ix1 g) ≠ 0 := by
  unfold countsRef
  rw [ValueIdx.maximumf_apply]
  have h1 : (broadcastInDim S128 ![] bcast_S_S128 (constant (F := Ideal) S_ .f32 0x3F800000#32)) (ValueIdx.ix1 g) = 1 := by
    show Ideal.ofBits .f32 0x3F800000#32 = 1
    exact ofBits_one_f32
  rw [h1]
  exact ne_of_gt (lt_of_lt_of_le zero_lt_one (le_max_right _ _))

end Cert.Bridge

end
-- ==== Proof.KI.PoolValue.lean ====
import proofs.«427043_j31275951850041_2_alg».proof.Proof.KI.Pool
import proofs.«427043_j31275951850041_2_alg».proof.Proof.Bridge.Terms
import proofs.«427043_j31275951850041_2_alg».proof.Proof.Bridge.PoolMath
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

/-! The value of the pooling call at the extended reals: the output array after the last grid point is the mean
    pooling with its linear readout, as the reference states it. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The two matrix products' operand indices -/

abbrev dotA := dot_S10000x128_S10000x64_S128x64_0_0_1_1_n_n
abbrev dotB := dot_S128x64_S64x32_S128x32_1_0_0_1_n_n

theorem dotA_lhs_0 (j : S128x64.Idx) (q : dotA.contr.Idx) : (dotA.lhsIdx j q 0).val = (q ⟨0, by decide⟩).val :=
  dotA.lhsIdx_val_of_single rfl j q
theorem dotA_lhs_1 (j : S128x64.Idx) (q : dotA.contr.Idx) : (dotA.lhsIdx j q 1).val = (j 0).val := by
  unfold DotDims.lhsIdx
  rw [dif_neg (show ¬(1 : Fin S10000x128.rank) ∈ dotA.lhsBatch by decide), dif_pos (show (1 : Fin S10000x128.rank) ∈ dotA.lhsNonContracting by decide)]
  rfl
theorem dotA_rhs_0 (j : S128x64.Idx) (q : dotA.contr.Idx) : (dotA.rhsIdx j q 0).val = (q ⟨0, by decide⟩).val :=
  dotA.rhsIdx_val_of_single rfl j q
theorem dotA_rhs_1 (j : S128x64.Idx) (q : dotA.contr.Idx) : (dotA.rhsIdx j q 1).val = (j 1).val := by
  unfold DotDims.rhsIdx
  rw [dif_neg (show ¬(1 : Fin S10000x64.rank) ∈ dotA.rhsBatch by decide), dif_pos (show (1 : Fin S10000x64.rank) ∈ dotA.rhsNonContracting by decide)]
  rfl
theorem dotB_lhs_0 (j : S128x32.Idx) (q : dotB.contr.Idx) : (dotB.lhsIdx j q 0).val = (j 0).val := by
  unfold DotDims.lhsIdx
  rw [dif_neg (show ¬(0 : Fin S128x64.rank) ∈ dotB.lhsBatch by decide), dif_pos (show (0 : Fin S128x64.rank) ∈ dotB.lhsNonContracting by decide)]
  rfl
theorem dotB_lhs_1 (j : S128x32.Idx) (q : dotB.contr.Idx) : (dotB.lhsIdx j q 1).val = (q ⟨0, by decide⟩).val :=
  dotB.lhsIdx_val_of_single rfl j q
theorem dotB_rhs_0 (j : S128x32.Idx) (q : dotB.contr.Idx) : (dotB.rhsIdx j q 0).val = (q ⟨0, by decide⟩).val :=
  dotB.rhsIdx_val_of_single rfl j q
theorem dotB_rhs_1 (j : S128x32.Idx) (q : dotB.contr.Idx) : (dotB.rhsIdx j q 1).val = (j 1).val := by
  unfold DotDims.rhsIdx
  rw [dif_neg (show ¬(1 : Fin S64x32.rank) ∈ dotB.rhsBatch by decide), dif_pos (show (1 : Fin S64x32.rank) ∈ dotB.rhsNonContracting by decide)]
  rfl

/-- The one-hot product contracts the node axis: its left operand is read at (node, graph) … -/
theorem dotA_lhs (g : Fin 128) (d : Fin 64) (n : Fin 10000) :
    dotA.lhsIdx (ix2 g d) ((contrEquiv1 dotA 10000 rfl rfl).symm n) = ix2 n g := by
  have hk := contrEquiv1_symm_val dotA 10000 rfl rfl n
  funext a; apply Fin.ext
  match a with
  | ⟨0, _⟩ => exact (dotA_lhs_0 _ _).trans hk
  | ⟨1, _⟩ => exact dotA_lhs_1 _ _

/-- … and its right operand at (node, feature). -/
theorem dotA_rhs (g : Fin 128) (d : Fin 64) (n : Fin 10000) :
    dotA.rhsIdx (ix2 g d) ((contrEquiv1 dotA 10000 rfl rfl).symm n) = ix2 n d := by
  have hk := contrEquiv1_symm_val dotA 10000 rfl rfl n
  funext a; apply Fin.ext
  match a with
  | ⟨0, _⟩ => exact (dotA_rhs_0 _ _).trans hk
  | ⟨1, _⟩ => exact dotA_rhs_1 _ _

/-- The readout product contracts the feature axis: its left operand is read at (graph, feature) … -/
theorem dotB_lhs (g : Fin 128) (o : Fin 32) (k : Fin 64) :
    dotB.lhsIdx (ix2 g o) ((contrEquiv1 dotB 64 rfl rfl).symm k) = ix2 g k := by
  have hk := contrEquiv1_symm_val dotB 64 rfl rfl k
  funext a; apply Fin.ext
  match a with
  | ⟨0, _⟩ => exact dotB_lhs_0 _ _
  | ⟨1, _⟩ => exact (dotB_lhs_1 _ _).trans hk

/-- … and its right operand at (feature, output). -/
theorem dotB_rhs (g : Fin 128) (o : Fin 32) (k : Fin 64) :
    dotB.rhsIdx (ix2 g o) ((contrEquiv1 dotB 64 rfl rfl).symm k) = ix2 k o := by
  have hk := contrEquiv1_symm_val dotB 64 rfl rfl k
  funext a; apply Fin.ext
  match a with
  | ⟨0, _⟩ => exact (dotB_rhs_0 _ _).trans hk
  | ⟨1, _⟩ => exact dotB_rhs_1 _ _

/-! ## The payloads read at an index -/

/-- Whether the node word `w` names graph `g`: the comparison's bit, widened and converted, is 1 or 0. -/
theorem onehot_apply (w : BitVec 32) (g : Fin 128) :
    (FloatOps.sitofp (F := Ideal) .f32 ((IntOp.cmpi .eq w (BitVec.ofNat 32 g.val)).setWidth 32) : EReal)
      = if w = BitVec.ofNat 32 g.val then (1 : EReal) else 0 := by
  show (((((IntOp.cmpi .eq w (BitVec.ofNat 32 g.val)).setWidth 32).toInt : ℤ) : ℝ) : EReal) = _
  by_cases h : w = BitVec.ofNat 32 g.val
  · have e : IntOp.cmpi .eq w (BitVec.ofNat 32 g.val) = 1#1 := by simp [IntOp.cmpi, h]
    rw [if_pos h, e, show ((1#1 : BitVec 1).setWidth 32).toInt = 1 from by decide]
    norm_num
  · have e : IntOp.cmpi .eq w (BitVec.ofNat 32 g.val) = 0#1 := by
      show BitVec.ofBool (w == BitVec.ofNat 32 g.val) = 0#1
      rw [beq_eq_false_iff_ne.mpr h]; rfl
    rw [if_neg h, e, show ((0#1 : BitVec 1).setWidth 32).toInt = 0 from by decide]
    norm_num

/-- The one-hot matrix of a tile's graph numbers at (node, graph). -/
theorem hot_entry (b : Vec Ideal S10000x1 .i32) (n : Fin 10000) (g : Fin 128) :
    (truncf .bf16 (sitofp (F := Ideal) .f32 (extui 32 (cmpi .eq (broadcastTo S10000x128 (shapeCast S10000x1 b shapeCasts_S10000x1_S10000x1) broadcasts_S10000x1_S10000x128) (iota .tc S10000x128 32 [1] iota_S10000x128_d1_w32)) natLt_1_32)) bitsLt_bf16_f32 : FVec Ideal S10000x128 .bf16) (ix2 n g)
      = if b (ix2 n 0) = BitVec.ofNat 32 g.val then (1 : EReal) else 0 := by
  have hb : broadcastTo S10000x128 (shapeCast S10000x1 b shapeCasts_S10000x1_S10000x1) broadcasts_S10000x1_S10000x128 (ix2 n g) = b (ix2 n 0) := by
    refine (broadcastTo_apply _ _ (ix2 n g) (ix2 n 0) ?_).trans (congrFun (shapeCast_self b _) _)
    intro a
    match a with
    | ⟨0, _⟩ => rfl
    | ⟨1, _⟩ => rfl
  have hi : iota .tc S10000x128 32 [1] iota_S10000x128_d1_w32 (ix2 n g) = BitVec.ofNat 32 g.val :=
    iota_single_apply .tc S10000x128 32 1 iota_S10000x128_d1_w32 (ix2 n g)
  show FloatOps.sitofp (F := Ideal) .f32 ((IntOp.cmpi .eq (broadcastTo S10000x128 (shapeCast S10000x1 b shapeCasts_S10000x1_S10000x1) broadcasts_S10000x1_S10000x128 (ix2 n g)) (iota .tc S10000x128 32 [1] iota_S10000x128_d1_w32 (ix2 n g))).setWidth 32) = _
  rw [hb, hi]
  exact onehot_apply _ _

/-- One grid point's update of the sums scratch at (graph, feature): the scratch plus the tile's features summed
    over the nodes the tile assigns to that graph. -/
theorem pay2_apply (x : Vec Ideal S10000x64 .f32) (b : Vec Ideal S10000x1 .i32) (s : Vec Ideal S128x64 .f32) (g : Fin 128) (d : Fin 64) :
    k3_pay2 (F := Ideal) x b s (ix2 g d)
      = s (ix2 g d) + ∑ n : Fin 10000, (if b (ix2 n 0) = BitVec.ofNat 32 g.val then (1 : EReal) else 0) * x (ix2 n d) := by
  unfold k3_pay2
  refine (congrFun (shapeCast_self _ _) (ix2 g d)).trans ?_
  refine congrArg (s (ix2 g d) + ·) ?_
  refine (Ideal.matmul_constant_zero_apply dotA none _ _ (ix2 g d)).trans ?_
  refine (Equiv.sum_comp (contrEquiv1 dotA 10000 rfl rfl).symm _).symm.trans ?_
  refine Finset.sum_congr rfl fun n _ => ?_
  rw [dotA_lhs, dotA_rhs]
  refine congrArg₂ (· * ·) (hot_entry b n g) ?_
  exact congrFun (shapeCast_self x _) (ix2 n d)

/-- The readout at (graph, output): the scratch row scaled by the graph's inverse count, times the weights' column. -/
theorem pay3_apply (s : Vec Ideal S128x64 .f32) (ci : Vec Ideal S128x1 .f32) (wo : Vec Ideal S64x32 .f32) (g : Fin 128) (o : Fin 32) :
    k3_pay3 (F := Ideal) s ci wo (ix2 g o) = ∑ k : Fin 64, (s (ix2 g k) * ci (ix2 g 0)) * wo (ix2 k o) := by
  unfold k3_pay3
  refine (Ideal.matmul_constant_zero_apply dotB none _ _ (ix2 g o)).trans ?_
  refine (Equiv.sum_comp (contrEquiv1 dotB 64 rfl rfl).symm _).symm.trans ?_
  refine Finset.sum_congr rfl fun k _ => ?_
  rw [dotB_lhs, dotB_rhs]
  refine congrArg₂ (· * ·) (congrArg (s (ix2 g k) * ·) ?_) (congrFun (shapeCast_self wo _) (ix2 k o))
  refine (broadcastTo_apply _ _ (ix2 g k) (ix2 g 0) ?_).trans (congrFun (shapeCast_self ci _) _)
  intro a
  match a with
  | ⟨0, _⟩ => rfl
  | ⟨1, _⟩ => rfl

/-- The reset value of the sums scratch is zero. -/
theorem pay1_apply (g : Fin 128) (d : Fin 64) : k3_pay1 (F := Ideal) (ix2 g d) = 0 := by
  unfold k3_pay1
  refine (congrFun (shapeCast_self _ _) (ix2 g d)).trans ?_
  exact Ideal.ofBits_zero_f32

/-! ## The windows' blocks as parts of their arrays -/

variable (V : (c : Dev nD) → (b : Ref sig .tc) → Buf (Elt Ideal) ((c : Thread nD τ).loc b))

/-- The node features, the nodes' graph numbers (one column), the inverse counts (one column) and the output weights,
    as the call finds them. -/
abbrev harr (c : Dev nD) : Vec Ideal S100000x64 .f32 := V c (Pipeline.arrRef spec3 0)
abbrev barr (c : Dev nD) : Vec Ideal S100000x1 .i32 := V c (Pipeline.arrRef spec3 1)
abbrev carr (c : Dev nD) : Vec Ideal S128x1 .f32 := V c (Pipeline.arrRef spec3 2)
abbrev warr (c : Dev nD) : Vec Ideal S64x32 .f32 := V c (Pipeline.arrRef spec3 3)
/-- Their blocks at grid point `t`. -/
abbrev xblk (c : Dev nD) (t : Fin cfg3.N) : Vec Ideal S10000x64 .f32 := iblk3 V c 0 t
abbrev bblk (c : Dev nD) (t : Fin cfg3.N) : Vec Ideal S10000x1 .i32 := iblk3 V c 1 t
abbrev cblk (c : Dev nD) (t : Fin cfg3.N) : Vec Ideal S128x1 .f32 := iblk3 V c 2 t
abbrev wblk (c : Dev nD) (t : Fin cfg3.N) : Vec Ideal S64x32 .f32 := iblk3 V c 3 t

/-- The block indices: the two node-tiled windows walk down the rows with the grid point, the others stay at block 0. -/
theorem index3 : ∀ t : Fin grid3.N, (win3_0.index t 0 = t.val ∧ win3_0.index t 1 = 0) ∧ (win3_1.index t 0 = t.val ∧ win3_1.index t 1 = 0)
    ∧ (win3_2.index t 0 = 0 ∧ win3_2.index t 1 = 0) ∧ (win3_3.index t 0 = 0 ∧ win3_3.index t 1 = 0)
    ∧ (win3_4.index t 0 = 0 ∧ win3_4.index t 1 = 0) := by decide +kernel

/-- Row `n` of the feature tile at point `t` is row `10000 t + n` of the feature array. -/
theorem xblk_apply (c : Dev nD) (t : Fin cfg3.N) (n : Fin 10000) (d : Fin 64) (h : 10000 * t.val + n.val < 100000) :
    xblk V c t (ix2 n d) = harr V c (ix2 ⟨10000 * t.val + n.val, h⟩ d) := by
  show ((cfg3.win 0).blk t).view.read (Elt Ideal) (V c (Pipeline.arrRef spec3 0)) (ix2 n d) = _
  rw [View.read_apply]
  show harr V c _ = harr V c _
  congr 1
  funext a
  apply Fin.ext
  match a with
  | ⟨0, _⟩ => show win3_0.index t 0 * 10000 + 1 * n.val = 10000 * t.val + n.val; rw [(index3 t).1.1]; omega
  | ⟨1, _⟩ => show win3_0.index t 1 * 64 + 1 * d.val = d.val; rw [(index3 t).1.2]; omega

/-- Row `n` of the graph-number tile at point `t` is row `10000 t + n` of the graph-number column. -/
theorem bblk_apply (c : Dev nD) (t : Fin cfg3.N) (n : Fin 10000) (h : 10000 * t.val + n.val < 100000) :
    bblk V c t (ix2 n 0) = barr V c (ix2 ⟨10000 * t.val + n.val, h⟩ 0) := by
  show ((cfg3.win 1).blk t).view.read (Elt Ideal) (V c (Pipeline.arrRef spec3 1)) (ix2 n 0) = _
  rw [View.read_apply]
  show barr V c _ = barr V c _
  congr 1
  funext a
  apply Fin.ext
  match a with
  | ⟨0, _⟩ => show win3_1.index t 0 * 10000 + 1 * n.val = 10000 * t.val + n.val; rw [(index3 t).2.1.1]; omega
  | ⟨1, _⟩ => show win3_1.index t 1 * 1 + 1 * 0 = 0; rw [(index3 t).2.1.2]

/-- The inverse-count window's one block is its array. -/
theorem cblk_eq (c : Dev nD) (t : Fin cfg3.N) : cblk V c t = carr V c := by
  funext j
  show ((cfg3.win 2).blk t).view.read (Elt Ideal) (V c (Pipeline.arrRef spec3 2)) j = _
  rw [View.read_apply]
  show carr V c _ = carr V c _
  congr 1
  funext a
  apply Fin.ext
  match a with
  | ⟨0, _⟩ => show win3_2.index t 0 * 128 + 1 * (j 0).val = (j 0).val; rw [(index3 t).2.2.1.1]; omega
  | ⟨1, _⟩ => show win3_2.index t 1 * 1 + 1 * (j 1).val = (j 1).val; rw [(index3 t).2.2.1.2]; omega

/-- The weight window's one block is its array. -/
theorem wblk_eq (c : Dev nD) (t : Fin cfg3.N) : wblk V c t = warr V c := by
  funext j
  show ((cfg3.win 3).blk t).view.read (Elt Ideal) (V c (Pipeline.arrRef spec3 3)) j = _
  rw [View.read_apply]
  show warr V c _ = warr V c _
  congr 1
  funext a
  apply Fin.ext
  match a with
  | ⟨0, _⟩ => show win3_3.index t 0 * 64 + 1 * (j 0).val = (j 0).val; rw [(index3 t).2.2.2.1.1]; omega
  | ⟨1, _⟩ => show win3_3.index t 1 * 32 + 1 * (j 1).val = (j 1).val; rw [(index3 t).2.2.2.1.2]; omega

/-! ## The sums scratch after each grid point: the sum over the nodes met so far -/

/-- Node `r`'s contribution to graph `g`'s sum of feature `d`: its feature if the node lies in that graph, else zero
    (and zero past the last node). -/
def term (c : Dev nD) (g : Fin 128) (d : Fin 64) (r : ℕ) : EReal :=
  if h : r < 100000 then (if barr V c (ix2 ⟨r, h⟩ 0) = BitVec.ofNat 32 g.val then (1 : EReal) else 0) * harr V c (ix2 ⟨r, h⟩ d) else 0

/-- A tile's one-hot sum is the sum of its ten thousand nodes' contributions. -/
theorem tile_sum (c : Dev nD) (t : Fin cfg3.N) (g : Fin 128) (d : Fin 64) :
    ∑ n : Fin 10000, (if bblk V c t (ix2 n 0) = BitVec.ofNat 32 g.val then (1 : EReal) else 0) * xblk V c t (ix2 n d)
      = ∑ m ∈ Finset.range 10000, term V c g d (10000 * t.val + m) := by
  rw [Finset.sum_range]
  refine Finset.sum_congr rfl fun n _ => ?_
  have hN : grid3.N = 10 := N_3
  have ht : t.val < grid3.N := t.isLt
  have h : 10000 * t.val + n.val < 100000 := by have := n.isLt; omega
  unfold term
  rw [dif_pos h, xblk_apply V c t n d h, bblk_apply V c t n h]

/-- After grid point `n` the sums scratch holds, at (graph, feature), the contributions of the first `10000 (n + 1)` nodes. -/
theorem acc3_apply (c : Dev nD) : ∀ (n : ℕ) (hn : n < cfg3.N) (g : Fin 128) (d : Fin 64),
    acc3 (F := Ideal) V c n hn (ix2 g d) = ∑ r ∈ Finset.range (10000 * (n + 1)), term V c g d r
  | 0, hn, g, d => by
    refine (pay2_apply (xblk V c ⟨0, hn⟩) (bblk V c ⟨0, hn⟩) (k3_pay1 (F := Ideal)) g d).trans ?_
    rw [pay1_apply, zero_add, tile_sum V c ⟨0, hn⟩ g d]
    refine Finset.sum_congr rfl fun m _ => ?_
    show term V c g d (10000 * 0 + m) = _
    rw [Nat.mul_zero, Nat.zero_add]
  | n + 1, hn, g, d => by
    refine (pay2_apply (xblk V c ⟨n + 1, hn⟩) (bblk V c ⟨n + 1, hn⟩) (acc3 (F := Ideal) V c n (Nat.lt_of_succ_lt hn)) g d).trans ?_
    rw [acc3_apply c n (Nat.lt_of_succ_lt hn) g d, tile_sum V c ⟨n + 1, hn⟩ g d,
      show 10000 * (n + 1 + 1) = 10000 * (n + 1) + 10000 from by omega, Finset.sum_range_add]

/-- After the last point: the sum over all nodes. -/
theorem acc3_last (c : Dev nD) (h9 : 9 < cfg3.N) (g : Fin 128) (d : Fin 64) :
    acc3 (F := Ideal) V c 9 h9 (ix2 g d)
      = ∑ n : Fin 100000, (if barr V c (ix2 n 0) = BitVec.ofNat 32 g.val then (1 : EReal) else 0) * harr V c (ix2 n d) := by
  rw [acc3_apply V c 9 h9 g d, show 10000 * (9 + 1) = 100000 from rfl, Finset.sum_range]
  refine Finset.sum_congr rfl fun n _ => ?_
  unfold term
  rw [dif_pos n.isLt]

/-! ## The reference's pooling read at an index -/

/-- A row-scaled matrix times the weights, the host's way, at (graph, output): over the features, the entry divided by
    the graph's divisor, times the weights' column. -/
theorem readout_apply (A : FVec Ideal Cert.ReferenceIdeal.S128x64 .f32) (cnt : FVec Ideal Cert.ReferenceIdeal.S128 .f32)
    (woT : FVec Ideal Cert.ReferenceIdeal.S64x32 .f32)
    (h1 : Cert.ReferenceIdeal.S128x1.BroadcastsInDim Cert.ReferenceIdeal.S128x64 ![0, 1])
    (h2 : Cert.ReferenceIdeal.S128.BroadcastsInDim Cert.ReferenceIdeal.S128x1 ![0]) (g : Fin 128) (o : Fin 32) :
    Host.dotGeneral (F := Ideal) Cert.ReferenceIdeal.dot_S128x64_S64x32_S128x32_1_0_0_1_n_n none
        (Host.divf A (broadcastInDim Cert.ReferenceIdeal.S128x64 ![0, 1] h1
          (broadcastInDim Cert.ReferenceIdeal.S128x1 ![0] h2 cnt))) woT (ix2 g o)
      = ∑ k : Fin 64, Ideal.div (A (ix2 g k)) (cnt (ix1 g)) * woT (ix2 k o) := by
  refine (Ideal.dotGeneral_apply dotB none _ _ _ (ix2 g o)).trans ?_
  refine (Equiv.sum_comp (contrEquiv1 dotB 64 rfl rfl).symm _).symm.trans ?_
  refine Finset.sum_congr rfl fun k _ => ?_
  rw [dotB_lhs, dotB_rhs]
  refine congrArg (· * woT (ix2 k o)) ?_
  refine congrArg (Ideal.div (A (ix2 g k))) ?_
  refine (broadcastInDim_apply _ _ _ (ix2 g k) (ix2 g 0) ?_).trans ?_
  · intro a
    match a with
    | ⟨0, _⟩ => rfl
    | ⟨1, _⟩ => rfl
  · refine broadcastInDim_apply _ _ _ (ix2 g 0) (ix1 g) ?_
    intro a
    match a with
    | ⟨0, _⟩ => rfl

/-- The pooled readout at (graph, output): over the features, the graph's feature sum divided by its node count,
    times the weights' column. -/
theorem poolRef_apply (h : (⟨Cert.ReferenceIdeal.S100000x64, .f32⟩ : BufTy).Contents (Elt Ideal))
    (batch : (⟨Cert.ReferenceIdeal.S100000, .i32⟩ : BufTy).Contents (Elt Ideal))
    (woT : (⟨Cert.ReferenceIdeal.S64x32, .f32⟩ : BufTy).Contents (Elt Ideal)) (g : Fin 128) (o : Fin 32) :
    Cert.Bridge.poolRef (F := Ideal) h batch woT (ix2 g o)
      = ∑ k : Fin 64, Ideal.div (∑ n : Fin 100000, (if batch (ix1 n) = BitVec.ofNat 32 g.val then (1 : EReal) else 0) * h (ix2 n k))
          (Cert.Bridge.countsRef (F := Ideal) batch (ix1 g)) * woT (ix2 k o) := by
  unfold Cert.Bridge.poolRef
  refine (readout_apply _ (Cert.Bridge.countsRef (F := Ideal) batch) woT _ _ g o).trans ?_
  refine Finset.sum_congr rfl fun k _ => ?_
  exact congrArg (fun s => Ideal.div s (Cert.Bridge.countsRef (F := Ideal) batch (ix1 g)) * woT (ix2 k o)) (Cert.Bridge.sums_onehot h batch g k)

/-! ## The output array after the last point -/

/-- The pooled readout, as contents of the output array. -/
abbrev poolG (c : Dev nD) (batch : (⟨Cert.ReferenceIdeal.S100000, .i32⟩ : BufTy).Contents (Elt Ideal)) :
    Vec Ideal S128x32 .f32 :=
  Cert.Bridge.poolRef (F := Ideal) (V c (Pipeline.arrRef spec3 0)) batch (V c (Pipeline.arrRef spec3 3))

/-- A vector reshaped to one column reads its entry at (row, 0). -/
theorem col_apply {α : Type} {n : Nat} (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) := by
  refine shapeCast_apply x h (ix2 r 0) (ix1 r) ?_
  refine (Shape.rowMajor_val_one (ix1 r)).trans ((Shape.rowMajor_val_two (ix2 r (0 : Fin 1))).trans ?_).symm
  show r.val * 1 + 0 = r.val
  omega

/-- The inverse counts: one over the count, entry by entry. -/
theorem one_div_apply (cnt : FVec Ideal S128 .f32) (h : S_.BroadcastsInDim S128 ![]) (g : Fin 128) :
    Host.divf (F := Ideal) (broadcastInDim S128 ![] h (constant (F := Ideal) S_ .f32 0x3F800000#32)) cnt (ix1 g)
      = Ideal.div 1 (cnt (ix1 g)) := by
  show Ideal.div (broadcastInDim S128 ![] h (constant (F := Ideal) S_ .f32 0x3F800000#32) (ix1 g)) (cnt (ix1 g)) = _
  refine congrArg (fun u => Ideal.div u (cnt (ix1 g))) ?_
  refine (broadcastInDim_apply _ _ _ (ix1 g) ix0 ?_).trans ?_
  · intro a; exact a.elim0
  · exact (constant_apply (s := S_) (φ := .f32) 0x3F800000#32 ix0).trans Cert.Bridge.ofBits_one_f32

/-- What the last point leaves in the output tile is the pooled readout. -/
theorem last_eq (c : Dev nD) (h9 : 9 < cfg3.N)
    (batch : (⟨Cert.ReferenceIdeal.S100000, .i32⟩ : BufTy).Contents (Elt Ideal))
    (hb : V c (Pipeline.arrRef spec3 1) = shapeCast _ batch shapeCasts_S100000_S100000x1)
    (hci : V c (Pipeline.arrRef spec3 2) = shapeCast _ (Host.divf (F := Ideal) (broadcastInDim S128 ![] bcast_S_S128 (constant (F := Ideal) S_ .f32 0x3F800000#32)) (Cert.Bridge.countsRef (F := Ideal) batch)) shapeCasts_S128_S128x1) :
    k3_pay3 (F := Ideal) (acc3 (F := Ideal) V c 9 h9) (cblk V c ⟨9, h9⟩) (wblk V c ⟨9, h9⟩) = poolG V c batch := by
  funext j
  obtain ⟨g, o, rfl⟩ : ∃ (g : Fin 128) (o : Fin 32), j = ix2 g o := ⟨j 0, j 1, eq_ix2 j⟩
  refine (pay3_apply (acc3 (F := Ideal) V c 9 h9) (cblk V c ⟨9, h9⟩) (wblk V c ⟨9, h9⟩) g o).trans ?_
  refine Eq.trans ?_ (poolRef_apply (harr V c) batch (warr V c) g o).symm
  refine Finset.sum_congr rfl fun k _ => ?_
  have hb' : barr V c = shapeCast S100000x1 batch shapeCasts_S100000_S100000x1 := hb
  have hci' : carr V c = shapeCast S128x1 (Host.divf (F := Ideal) (broadcastInDim S128 ![] bcast_S_S128 (constant (F := Ideal) S_ .f32 0x3F800000#32)) (Cert.Bridge.countsRef (F := Ideal) batch)) shapeCasts_S128_S128x1 := hci
  have hbn : ∀ n : Fin 100000, barr V c (ix2 n 0) = batch (ix1 n) := fun n =>
    (congrFun hb' (ix2 n 0)).trans (col_apply batch shapeCasts_S100000_S100000x1 n)
  have hcg : cblk V c ⟨9, h9⟩ (ix2 g 0) = Ideal.div 1 (Cert.Bridge.countsRef (F := Ideal) batch (ix1 g)) := by
    refine (congrFun (cblk_eq V c ⟨9, h9⟩) (ix2 g 0)).trans ?_
    refine (congrFun hci' (ix2 g 0)).trans ?_
    refine (col_apply _ shapeCasts_S128_S128x1 g).trans ?_
    exact one_div_apply (Cert.Bridge.countsRef (F := Ideal) batch) bcast_S_S128 g
  have hw : wblk V c ⟨9, h9⟩ (ix2 k o) = warr V c (ix2 k o) := congrFun (wblk_eq V c ⟨9, h9⟩) (ix2 k o)
  have hs : acc3 (F := Ideal) V c 9 h9 (ix2 g k)
      = ∑ n : Fin 100000, (if batch (ix1 n) = BitVec.ofNat 32 g.val then (1 : EReal) else 0) * harr V c (ix2 n k) :=
    (acc3_last V c h9 g k).trans (Finset.sum_congr rfl fun n _ => by rw [hbn n])
  rw [hs, hcg, hw, Cert.Bridge.mul_div_one _ _ (Cert.Bridge.countsRef_ne_zero batch g)]

/-- The one write-back, at the last point, writes the pooled readout: the output window's one block is its array. -/
theorem flushed_eq (c : Dev nD) (batch : (⟨Cert.ReferenceIdeal.S100000, .i32⟩ : BufTy).Contents (Elt Ideal))
    (hb : V c (Pipeline.arrRef spec3 1) = shapeCast _ batch shapeCasts_S100000_S100000x1)
    (hci : V c (Pipeline.arrRef spec3 2) = shapeCast _ (Host.divf (F := Ideal) (broadcastInDim S128 ![] bcast_S_S128 (constant (F := Ideal) S_ .f32 0x3F800000#32)) (Cert.Bridge.countsRef (F := Ideal) batch)) shapeCasts_S128_S128x1)
    (t : Fin cfg3.N) (hf : (cfg3.win 4).flush t = true) :
    (dat3 (F := Ideal) V c).flushed 4 t = ((cfg3.win 4).blk t).view.read (Elt Ideal) (poolG V c batch) := by
  have hN : grid3.N = 10 := N_3
  have ht : t.val < grid3.N := t.isLt
  have h9 : t.val = 9 := by have := (flush3_4 t).mp hf; omega
  obtain rfl : t = t3_9 := Fin.ext h9
  show (cfg3.win 4).cut (grid3.coords t3_9) ((dat3 (F := Ideal) V c).after 4 t3_9) = _
  rw [after3_4]
  have hz' : (fun a => win3_4.index t3_9 a * main_v66.ty.shape.size a) = fun _ => 0 := funext fun a => by fin_cases a <;> decide +kernel
  refine Eq.trans (?_ : _ = poolG V c batch) (Memref.read_access_unit_zero (Elt Ideal) main_v66 hz' (fun a => by rw [congrFun hz' a]; simp) (poolG V c batch)).symm
  exact last_eq V c t3_9.isLt batch hb hci

/-- The pooling call's output array after its last grid point: the per-graph sums of the node features, each divided
    by the graph's node count (at least one), times the transposed output weights. -/
theorem pool_value (c : Dev nD)
    (batch : (⟨Cert.ReferenceIdeal.S100000, .i32⟩ : BufTy).Contents (Elt Ideal))
    (hb : V c (Pipeline.arrRef spec3 1) = shapeCast _ batch shapeCasts_S100000_S100000x1)
    (hci : V c (Pipeline.arrRef spec3 2) = shapeCast _ (Host.divf (F := Ideal) (broadcastInDim S128 ![] bcast_S_S128 (constant (F := Ideal) S_ .f32 0x3F800000#32)) (Cert.Bridge.countsRef (F := Ideal) batch)) shapeCasts_S128_S128x1) :
    (dat3 (F := Ideal) V c).arrAt 4 cfg3.N = Cert.Bridge.poolRef (F := Ideal) (V c (Pipeline.arrRef spec3 0)) batch (V c (Pipeline.arrRef spec3 3)) :=
  (dat3 (F := Ideal) V c).arrAt_eq_of_cover 4 (poolG V c batch) (flushed_eq V c batch hb hci) fun i =>
    ⟨t3_9, (flush3_4 t3_9).mpr rfl, by
      show i ∈ ((View.whole main_v66).slice (win3_4.rect t3_9)).set
      rw [View.set_slice_whole, Rect.mem_set_unit]
      intro a
      have h0 : (i 0 : Nat) < 128 := (i 0).isLt
      have h1 : (i 1 : Nat) < 32 := (i 1).isLt
      match a with
      | ⟨0, _⟩ =>
        show win3_4.index t3_9 0 * win3_4.size 0 ≤ (i 0 : Nat) ∧ (i 0 : Nat) < win3_4.index t3_9 0 * win3_4.size 0 + win3_4.xsize (grid3.coords t3_9) 0
        rw [show win3_4.index t3_9 0 * win3_4.size 0 = 0 from by decide +kernel, show win3_4.xsize (grid3.coords t3_9) 0 = 128 from by decide +kernel]
        omega
      | ⟨1, _⟩ =>
        show win3_4.index t3_9 1 * win3_4.size 1 ≤ (i 1 : Nat) ∧ (i 1 : Nat) < win3_4.index t3_9 1 * win3_4.size 1 + win3_4.xsize (grid3.coords t3_9) 1
        rw [show win3_4.index t3_9 1 * win3_4.size 1 = 0 from by decide +kernel, show win3_4.xsize (grid3.coords t3_9) 1 = 32 from by decide +kernel]
        omega⟩

end Cert.KernelIdeal.Hand

end
-- ==== Proof.KI.HostVals.lean ====
import proofs.«427043_j31275951850041_2_alg».proof.Proof.KI.Fold
import proofs.«427043_j31275951850041_2_alg».proof.Proof.Bridge.Terms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! What each call's input windows hold when the call is entered, as the stages of the network applied to earlier
    contents: the edge aggregation of the current features, the features themselves, the two weight slabs transposed;
    and for the pooling call the last layer's features, the graph ids as a column, the reciprocal node counts as a
    column, and the readout weights transposed. -/

/-! ## Buffers no call writes

The two rows of the edge list are cut out once, before the first call, and never written again; an argument is never
written at all. So each of them is found unchanged at every later boundary: a host stretch that does not write a buffer
leaves it, and a call leaves every buffer that is not one of its five arrays. -/

/-- The message sources, at each boundary up to the last one that reads them. -/
theorem host_W1_v1 (c : Dev nD) : W1 m c (Proc.devRef .tc main_v1) = Cert.Bridge.srcIdx (m ((c.tc : Thread nD τ).loc main_arg1)) := by
  show StableHlo.after hostOps0 (W0 m c) (Proc.devRef .tc main_v1) = _
  dsimp only [hostOps0]
  after_results_simp <;> rfl
theorem host_W2_v1 (c : Dev nD) : W2 m c (Proc.devRef .tc main_v1) = Cert.Bridge.srcIdx (m ((c.tc : Thread nD τ).loc main_arg1)) :=
  (W2_of_ne m c main_v1 (by decide)).trans (host_W1_v1 m c)
theorem host_W3_v1 (c : Dev nD) : W3 m c (Proc.devRef .tc main_v1) = Cert.Bridge.srcIdx (m ((c.tc : Thread nD τ).loc main_arg1)) := by
  show StableHlo.after hostOps1 (W2 m c) (Proc.devRef .tc main_v1) = _
  dsimp only [hostOps1]
  after_results_simp
  exact host_W2_v1 m c
theorem host_W4_v1 (c : Dev nD) : W4 m c (Proc.devRef .tc main_v1) = Cert.Bridge.srcIdx (m ((c.tc : Thread nD τ).loc main_arg1)) :=
  (W4_of_ne m c main_v1 (by decide)).trans (host_W3_v1 m c)

/-- The aggregation targets, at each boundary up to the last one that reads them. -/
theorem host_W1_v3 (c : Dev nD) : W1 m c (Proc.devRef .tc main_v3) = Cert.Bridge.dstIdx (m ((c.tc : Thread nD τ).loc main_arg1)) := by
  show StableHlo.after hostOps0 (W0 m c) (Proc.devRef .tc main_v3) = _
  dsimp only [hostOps0]
  after_results_simp <;> rfl
theorem host_W2_v3 (c : Dev nD) : W2 m c (Proc.devRef .tc main_v3) = Cert.Bridge.dstIdx (m ((c.tc : Thread nD τ).loc main_arg1)) :=
  (W2_of_ne m c main_v3 (by decide)).trans (host_W1_v3 m c)
theorem host_W3_v3 (c : Dev nD) : W3 m c (Proc.devRef .tc main_v3) = Cert.Bridge.dstIdx (m ((c.tc : Thread nD τ).loc main_arg1)) := by
  show StableHlo.after hostOps1 (W2 m c) (Proc.devRef .tc main_v3) = _
  dsimp only [hostOps1]
  after_results_simp
  exact host_W2_v3 m c
theorem host_W4_v3 (c : Dev nD) : W4 m c (Proc.devRef .tc main_v3) = Cert.Bridge.dstIdx (m ((c.tc : Thread nD τ).loc main_arg1)) :=
  (W4_of_ne m c main_v3 (by decide)).trans (host_W3_v3 m c)

/-- The relation weights, at each boundary up to the last one that reads them. -/
theorem host_W1_arg3 (c : Dev nD) : W1 m c (Proc.devRef .tc main_arg3) = m ((c.tc : Thread nD τ).loc main_arg3) := by
  show StableHlo.after hostOps0 (W0 m c) (Proc.devRef .tc main_arg3) = _
  dsimp only [hostOps0]
  after_results_simp <;> rfl
theorem host_W2_arg3 (c : Dev nD) : W2 m c (Proc.devRef .tc main_arg3) = m ((c.tc : Thread nD τ).loc main_arg3) :=
  (W2_of_ne m c main_arg3 (by decide)).trans (host_W1_arg3 m c)
theorem host_W3_arg3 (c : Dev nD) : W3 m c (Proc.devRef .tc main_arg3) = m ((c.tc : Thread nD τ).loc main_arg3) := by
  show StableHlo.after hostOps1 (W2 m c) (Proc.devRef .tc main_arg3) = _
  dsimp only [hostOps1]
  after_results_simp
  exact host_W2_arg3 m c
theorem host_W4_arg3 (c : Dev nD) : W4 m c (Proc.devRef .tc main_arg3) = m ((c.tc : Thread nD τ).loc main_arg3) :=
  (W4_of_ne m c main_arg3 (by decide)).trans (host_W3_arg3 m c)

/-- The root weights, at each boundary up to the last one that reads them. -/
theorem host_W1_arg4 (c : Dev nD) : W1 m c (Proc.devRef .tc main_arg4) = m ((c.tc : Thread nD τ).loc main_arg4) := by
  show StableHlo.after hostOps0 (W0 m c) (Proc.devRef .tc main_arg4) = _
  dsimp only [hostOps0]
  after_results_simp <;> rfl
theorem host_W2_arg4 (c : Dev nD) : W2 m c (Proc.devRef .tc main_arg4) = m ((c.tc : Thread nD τ).loc main_arg4) :=
  (W2_of_ne m c main_arg4 (by decide)).trans (host_W1_arg4 m c)
theorem host_W3_arg4 (c : Dev nD) : W3 m c (Proc.devRef .tc main_arg4) = m ((c.tc : Thread nD τ).loc main_arg4) := by
  show StableHlo.after hostOps1 (W2 m c) (Proc.devRef .tc main_arg4) = _
  dsimp only [hostOps1]
  after_results_simp
  exact host_W2_arg4 m c
theorem host_W4_arg4 (c : Dev nD) : W4 m c (Proc.devRef .tc main_arg4) = m ((c.tc : Thread nD τ).loc main_arg4) :=
  (W4_of_ne m c main_arg4 (by decide)).trans (host_W3_arg4 m c)

/-- The graph ids, at each boundary up to the last one that reads them. -/
theorem host_W1_arg2 (c : Dev nD) : W1 m c (Proc.devRef .tc main_arg2) = m ((c.tc : Thread nD τ).loc main_arg2) := by
  show StableHlo.after hostOps0 (W0 m c) (Proc.devRef .tc main_arg2) = _
  dsimp only [hostOps0]
  after_results_simp <;> rfl
theorem host_W2_arg2 (c : Dev nD) : W2 m c (Proc.devRef .tc main_arg2) = m ((c.tc : Thread nD τ).loc main_arg2) :=
  (W2_of_ne m c main_arg2 (by decide)).trans (host_W1_arg2 m c)
theorem host_W3_arg2 (c : Dev nD) : W3 m c (Proc.devRef .tc main_arg2) = m ((c.tc : Thread nD τ).loc main_arg2) := by
  show StableHlo.after hostOps1 (W2 m c) (Proc.devRef .tc main_arg2) = _
  dsimp only [hostOps1]
  after_results_simp
  exact host_W2_arg2 m c
theorem host_W4_arg2 (c : Dev nD) : W4 m c (Proc.devRef .tc main_arg2) = m ((c.tc : Thread nD τ).loc main_arg2) :=
  (W4_of_ne m c main_arg2 (by decide)).trans (host_W3_arg2 m c)
theorem host_W5_arg2 (c : Dev nD) : W5 m c (Proc.devRef .tc main_arg2) = m ((c.tc : Thread nD τ).loc main_arg2) := by
  show StableHlo.after hostOps2 (W4 m c) (Proc.devRef .tc main_arg2) = _
  dsimp only [hostOps2]
  after_results_simp
  exact host_W4_arg2 m c
theorem host_W6_arg2 (c : Dev nD) : W6 m c (Proc.devRef .tc main_arg2) = m ((c.tc : Thread nD τ).loc main_arg2) :=
  (W6_of_ne m c main_arg2 (by decide)).trans (host_W5_arg2 m c)

/-- The readout weights, at each boundary up to the last one that reads them. -/
theorem host_W1_arg5 (c : Dev nD) : W1 m c (Proc.devRef .tc main_arg5) = m ((c.tc : Thread nD τ).loc main_arg5) := by
  show StableHlo.after hostOps0 (W0 m c) (Proc.devRef .tc main_arg5) = _
  dsimp only [hostOps0]
  after_results_simp <;> rfl
theorem host_W2_arg5 (c : Dev nD) : W2 m c (Proc.devRef .tc main_arg5) = m ((c.tc : Thread nD τ).loc main_arg5) :=
  (W2_of_ne m c main_arg5 (by decide)).trans (host_W1_arg5 m c)
theorem host_W3_arg5 (c : Dev nD) : W3 m c (Proc.devRef .tc main_arg5) = m ((c.tc : Thread nD τ).loc main_arg5) := by
  show StableHlo.after hostOps1 (W2 m c) (Proc.devRef .tc main_arg5) = _
  dsimp only [hostOps1]
  after_results_simp
  exact host_W2_arg5 m c
theorem host_W4_arg5 (c : Dev nD) : W4 m c (Proc.devRef .tc main_arg5) = m ((c.tc : Thread nD τ).loc main_arg5) :=
  (W4_of_ne m c main_arg5 (by decide)).trans (host_W3_arg5 m c)
theorem host_W5_arg5 (c : Dev nD) : W5 m c (Proc.devRef .tc main_arg5) = m ((c.tc : Thread nD τ).loc main_arg5) := by
  show StableHlo.after hostOps2 (W4 m c) (Proc.devRef .tc main_arg5) = _
  dsimp only [hostOps2]
  after_results_simp
  exact host_W4_arg5 m c
theorem host_W6_arg5 (c : Dev nD) : W6 m c (Proc.devRef .tc main_arg5) = m ((c.tc : Thread nD τ).loc main_arg5) :=
  (W6_of_ne m c main_arg5 (by decide)).trans (host_W5_arg5 m c)

/-! ## Call 0: the first layer -/

set_option maxHeartbeats 1000000 in
theorem V1_v13 (c : Dev nD) :
    V1 m c main_v13 = Cert.Bridge.aggRef (m ((c.tc : Thread nD τ).loc main_arg0)) (m ((c.tc : Thread nD τ).loc main_arg1)) := by
  show StableHlo.after hostOps0 (W0 m c) (Proc.devRef .tc main_v13) = _
  dsimp only [hostOps0]
  after_results_simp
  unfold Cert.Bridge.aggRef Cert.Bridge.srcIdx Cert.Bridge.dstIdx
  rfl

theorem V1_arg0 (c : Dev nD) :
    V1 m c main_arg0 = m ((c.tc : Thread nD τ).loc main_arg0) := by
  show StableHlo.after hostOps0 (W0 m c) (Proc.devRef .tc main_arg0) = _
  dsimp only [hostOps0]
  after_results_simp <;> rfl

theorem V1_v16 (c : Dev nD) :
    V1 m c main_v16 = Cert.Bridge.wT0 (m ((c.tc : Thread nD τ).loc main_arg3)) := by
  show StableHlo.after hostOps0 (W0 m c) (Proc.devRef .tc main_v16) = _
  dsimp only [hostOps0]
  after_results_simp
  unfold Cert.Bridge.wT0
  rfl

theorem V1_v19 (c : Dev nD) :
    V1 m c main_v19 = Cert.Bridge.wT0 (m ((c.tc : Thread nD τ).loc main_arg4)) := by
  show StableHlo.after hostOps0 (W0 m c) (Proc.devRef .tc main_v19) = _
  dsimp only [hostOps0]
  after_results_simp
  unfold Cert.Bridge.wT0
  rfl

/-! ## Call 1: the second layer, over what call 0 left in its output array -/

set_option maxHeartbeats 1000000 in
theorem V3_v30 (c : Dev nD) :
    V3 m c main_v30 = Cert.Bridge.aggRef (W2 m c (Proc.devRef .tc main_v20)) (m ((c.tc : Thread nD τ).loc main_arg1)) := by
  show StableHlo.after hostOps1 (W2 m c) (Proc.devRef .tc main_v30) = _
  dsimp only [hostOps1]
  after_results_simp
  rw [host_W2_v1 m c, host_W2_v3 m c]
  unfold Cert.Bridge.aggRef Cert.Bridge.srcIdx Cert.Bridge.dstIdx
  rfl

theorem V3_v20 (c : Dev nD) :
    V3 m c main_v20 = W2 m c (Proc.devRef .tc main_v20) := by
  show StableHlo.after hostOps1 (W2 m c) (Proc.devRef .tc main_v20) = _
  dsimp only [hostOps1]
  after_results_simp <;> rfl

theorem V3_v33 (c : Dev nD) :
    V3 m c main_v33 = Cert.Bridge.wT1 (m ((c.tc : Thread nD τ).loc main_arg3)) := by
  show StableHlo.after hostOps1 (W2 m c) (Proc.devRef .tc main_v33) = _
  dsimp only [hostOps1]
  after_results_simp
  rw [host_W2_arg3 m c]
  unfold Cert.Bridge.wT1
  rfl

theorem V3_v36 (c : Dev nD) :
    V3 m c main_v36 = Cert.Bridge.wT1 (m ((c.tc : Thread nD τ).loc main_arg4)) := by
  show StableHlo.after hostOps1 (W2 m c) (Proc.devRef .tc main_v36) = _
  dsimp only [hostOps1]
  after_results_simp
  rw [host_W2_arg4 m c]
  unfold Cert.Bridge.wT1
  rfl

/-! ## Call 2: the third layer, over what call 1 left in its output array -/

set_option maxHeartbeats 1000000 in
theorem V5_v47 (c : Dev nD) :
    V5 m c main_v47 = Cert.Bridge.aggRef (W4 m c (Proc.devRef .tc main_v37)) (m ((c.tc : Thread nD τ).loc main_arg1)) := by
  show StableHlo.after hostOps2 (W4 m c) (Proc.devRef .tc main_v47) = _
  dsimp only [hostOps2]
  after_results_simp
  rw [host_W4_v1 m c, host_W4_v3 m c]
  unfold Cert.Bridge.aggRef Cert.Bridge.srcIdx Cert.Bridge.dstIdx
  rfl

theorem V5_v37 (c : Dev nD) :
    V5 m c main_v37 = W4 m c (Proc.devRef .tc main_v37) := by
  show StableHlo.after hostOps2 (W4 m c) (Proc.devRef .tc main_v37) = _
  dsimp only [hostOps2]
  after_results_simp <;> rfl

theorem V5_v50 (c : Dev nD) :
    V5 m c main_v50 = Cert.Bridge.wT2 (m ((c.tc : Thread nD τ).loc main_arg3)) := by
  show StableHlo.after hostOps2 (W4 m c) (Proc.devRef .tc main_v50) = _
  dsimp only [hostOps2]
  after_results_simp
  rw [host_W4_arg3 m c]
  unfold Cert.Bridge.wT2
  rfl

theorem V5_v53 (c : Dev nD) :
    V5 m c main_v53 = Cert.Bridge.wT2 (m ((c.tc : Thread nD τ).loc main_arg4)) := by
  show StableHlo.after hostOps2 (W4 m c) (Proc.devRef .tc main_v53) = _
  dsimp only [hostOps2]
  after_results_simp
  rw [host_W4_arg4 m c]
  unfold Cert.Bridge.wT2
  rfl

/-! ## Call 3: the pooling, over what call 2 left in its output array -/

theorem V7_v54 (c : Dev nD) :
    V7 m c main_v54 = W6 m c (Proc.devRef .tc main_v54) := by
  show StableHlo.after hostOps3 (W6 m c) (Proc.devRef .tc main_v54) = _
  dsimp only [hostOps3]
  after_results_simp <;> rfl

theorem V7_v65 (c : Dev nD) :
    V7 m c main_v65 = shapeCast _ (m ((c.tc : Thread nD τ).loc main_arg2)) shapeCasts_S100000_S100000x1 := by
  show StableHlo.after hostOps3 (W6 m c) (Proc.devRef .tc main_v65) = _
  dsimp only [hostOps3]
  after_results_simp
  rw [host_W6_arg2 m c]
  rfl

theorem V7_v63 (c : Dev nD) :
    V7 m c main_v63 = shapeCast _ (Host.divf (broadcastInDim S128 ![] bcast_S_S128 (constant (F := F) S_ .f32 0x3F800000#32)) (Cert.Bridge.countsRef (m ((c.tc : Thread nD τ).loc main_arg2)))) shapeCasts_S128_S128x1 := by
  show StableHlo.after hostOps3 (W6 m c) (Proc.devRef .tc main_v63) = _
  dsimp only [hostOps3]
  after_results_simp
  rw [host_W6_arg2 m c]
  unfold Cert.Bridge.countsRef
  rfl

theorem V7_v64 (c : Dev nD) :
    V7 m c main_v64 = transpose S64x32 [1, 0] (m ((c.tc : Thread nD τ).loc main_arg5)) transposes_S32x64_S64x32_1_0 := by
  show StableHlo.after hostOps3 (W6 m c) (Proc.devRef .tc main_v64) = _
  dsimp only [hostOps3]
  after_results_simp
  rw [host_W6_arg5 m c]

end Cert.KernelIdeal.Hand

end
-- ==== Proof.KI.Final.lean ====
import proofs.«427043_j31275951850041_2_alg».proof.Proof.KI.Fold
import proofs.«427043_j31275951850041_2_alg».proof.Proof.KI.LayerValue0
import proofs.«427043_j31275951850041_2_alg».proof.Proof.KI.LayerValue1
import proofs.«427043_j31275951850041_2_alg».proof.Proof.KI.LayerValue2
import proofs.«427043_j31275951850041_2_alg».proof.Proof.KI.PoolValue
import proofs.«427043_j31275951850041_2_alg».proof.Proof.KI.HostVals
import proofs.«427043_j31275951850041_2_alg».proof.Proof.Bridge.Terms

set_option maxRecDepth 16384

noncomputable section

/-! The idealized kernel's result buffer after @main, as the network of Bridge/Terms.lean applied to the launch
    contents of the six arguments: each layer call's output array is one layer of the call's input arrays, each host
    stretch between the calls is the edge aggregation and the weight slabs, and the pooling call is the mean pooling
    with its readout. -/

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- After the first layer call its output array holds layer one of the node features. -/
theorem W2_v20 (c : Dev nD) :
    W2 (F := Ideal) m c (Proc.devRef .tc main_v20)
      = Cert.Bridge.layerRef (F := Ideal) (Cert.Bridge.aggRef (m ((c.tc : Thread nD τ).loc main_arg0)) (m ((c.tc : Thread nD τ).loc main_arg1)))
          (m ((c.tc : Thread nD τ).loc main_arg0)) (Cert.Bridge.wT0 (m ((c.tc : Thread nD τ).loc main_arg3))) (Cert.Bridge.wT0 (m ((c.tc : Thread nD τ).loc main_arg4))) := by
  refine (W2_arr m c 4).trans ?_
  rw [layer_value0 (V1 m) c]
  rw [show V1 m c (Pipeline.arrRef spec0 0) = _ from V1_v13 m c, show V1 m c (Pipeline.arrRef spec0 1) = _ from V1_arg0 m c,
    show V1 m c (Pipeline.arrRef spec0 2) = _ from V1_v16 m c, show V1 m c (Pipeline.arrRef spec0 3) = _ from V1_v19 m c]

/-- After the second layer call: layer two. -/
theorem W4_v37 (c : Dev nD) :
    W4 (F := Ideal) m c (Proc.devRef .tc main_v37)
      = Cert.Bridge.layerRef (F := Ideal) (Cert.Bridge.aggRef (W2 (F := Ideal) m c (Proc.devRef .tc main_v20)) (m ((c.tc : Thread nD τ).loc main_arg1)))
          (W2 (F := Ideal) m c (Proc.devRef .tc main_v20)) (Cert.Bridge.wT1 (m ((c.tc : Thread nD τ).loc main_arg3))) (Cert.Bridge.wT1 (m ((c.tc : Thread nD τ).loc main_arg4))) := by
  refine (W4_arr m c 4).trans ?_
  rw [layer_value1 (V3 m) c]
  rw [show V3 m c (Pipeline.arrRef spec1 0) = _ from V3_v30 m c, show V3 m c (Pipeline.arrRef spec1 1) = _ from V3_v20 m c,
    show V3 m c (Pipeline.arrRef spec1 2) = _ from V3_v33 m c, show V3 m c (Pipeline.arrRef spec1 3) = _ from V3_v36 m c]

/-- After the third layer call: layer three. -/
theorem W6_v54 (c : Dev nD) :
    W6 (F := Ideal) m c (Proc.devRef .tc main_v54)
      = Cert.Bridge.layerRef (F := Ideal) (Cert.Bridge.aggRef (W4 (F := Ideal) m c (Proc.devRef .tc main_v37)) (m ((c.tc : Thread nD τ).loc main_arg1)))
          (W4 (F := Ideal) m c (Proc.devRef .tc main_v37)) (Cert.Bridge.wT2 (m ((c.tc : Thread nD τ).loc main_arg3))) (Cert.Bridge.wT2 (m ((c.tc : Thread nD τ).loc main_arg4))) := by
  refine (W6_arr m c 4).trans ?_
  rw [layer_value2 (V5 m) c]
  rw [show V5 m c (Pipeline.arrRef spec2 0) = _ from V5_v47 m c, show V5 m c (Pipeline.arrRef spec2 1) = _ from V5_v37 m c,
    show V5 m c (Pipeline.arrRef spec2 2) = _ from V5_v50 m c, show V5 m c (Pipeline.arrRef spec2 3) = _ from V5_v53 m c]

/-- The result buffer after the pooling call: the whole network of the arguments. -/
theorem final_value (c : Dev nD) :
    W8 (F := Ideal) m c (Proc.devRef .tc main_v66)
      = Cert.Bridge.netRef (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W8_arr m c 4).trans ?_
  rw [pool_value (V7 m) c (m ((c.tc : Thread nD τ).loc main_arg2)) (V7_v65 m c) (V7_v63 m c)]
  rw [show V7 m c (Pipeline.arrRef spec3 0) = _ from V7_v54 m c, show V7 m c (Pipeline.arrRef spec3 3) = _ from V7_v64 m c]
  rw [W6_v54 m c, W4_v37 m c, W2_v20 m c]
  rfl

end Cert.KernelIdeal.Hand

end
-- ==== Proof.lean ====
import proofs.«427043_j31275951850041_2_alg».proof.Defs
import proofs.«427043_j31275951850041_2_alg».proof.Proof.Gen.Kernel
import proofs.«427043_j31275951850041_2_alg».proof.Proof.Gen.KernelIdeal
import proofs.«427043_j31275951850041_2_alg».proof.Proof.Gen.ReferenceIdeal
import proofs.«427043_j31275951850041_2_alg».proof.Proof.Gen.Pre_finite_inputs
import proofs.«427043_j31275951850041_2_alg».proof.Proof.Gen.ReferenceIdeal.Run
import proofs.«427043_j31275951850041_2_alg».proof.Proof.K.Run
import proofs.«427043_j31275951850041_2_alg».proof.Proof.KI.Run
import proofs.«427043_j31275951850041_2_alg».proof.Proof.KI.Final
import proofs.«427043_j31275951850041_2_alg».proof.Proof.Bridge.Terms
import Idealize.ShloMosaic.Adequacy
import Idealize.ShloMosaic.Init

/-! A three-layer graph convolution with mean pooling, against its jnp reference.

    Both programs compute, from node features x, an edge list, a node-to-graph map and three weight stacks,
      h₀ = x,  hₗ₊₁ = relu((Σ_{e : dst e = ·} hₗ[src e])·Wrelₗᵀ + hₗ·Wrootₗᵀ),
      out = ((Σ_{n : batch n = g} h₃[n]) / max(count g, 1)) · Woutᵀ.
    The kernel tiles each layer's two matrix products over ten row blocks, and pools by accumulating, tile by tile,
    the product of a one-hot membership matrix with the node tile into a scratch, scaling by the reciprocal counts
    at the last tile. Over the extended reals a change of float format is the identity, a matrix product into a zero
    accumulator is the host's contraction, the one-hot products summed over the tiles are the scatter-add's sum (a
    finite sum reorders freely and 0·x = 0), and x·(1/c) = x/c for c = max(count, 1) ≠ 0: the two results are the
    same function of the arguments, and no finiteness of the inputs is used.

    The frames: every call's body runs from its staged tiles to its stored result, the pooling call carrying its
    sums scratch from tile to tile; @main's host stretches and calls chain over the buffers' contents. -/

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Bridge.netRef (F := Ideal) (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3))
        (m ((c.tc : Thread _ _).loc Cert.KernelIdeal.main_arg4)) (m ((c.tc : Thread _ _).loc Cert.KernelIdeal.main_arg5)),
      (θ_run Cert.KernelIdeal.defs _ _).mono (fun _ h c => ⟨(h c).1.trans (Cert.KernelIdeal.Hand.final_value m c), (h c).2⟩)
        (Cert.KernelIdeal.Hand.result_mem (F := Ideal) m ρ),
      (θ_run Cert.ReferenceIdeal.defs _ _).mono (fun _ h c => ⟨by
          rw [(h c).1, Cert.Bridge.res_eq_netRef, (hagree c).1, (hagree c).2.1, (hagree c).2.2.1, (hagree c).2.2.2.1, (hagree c).2.2.2.2.1, (hagree c).2.2.2.2.2], (h c).2⟩)
        (Cert.ReferenceIdeal.Value.run (F := Ideal) m' ρ')⟩⟩

end Cert.Proof

end
